-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x16x16 : Shape := ⟨4, ![1024, 256, 16, 16]⟩
abbrev S_ : Shape := ⟨0, ![]⟩

class Facts : Prop where
  bcast_S_S1024x256x16x16 : S_.BroadcastsInDim S1024x256x16x16 (![] : Fin 0 → Fin S1024x256x16x16.rank)
  reducesTo_S1024x256x16x16_S_d0_1_2_3 : S1024x256x16x16.ReducesTo [0, 1, 2, 3] S_
  h_S_ : 0 < S_.numel

variable [Facts]

def fn {F : FTy → Type} [FloatOps F] (main_arg0 : FVec F S1024x256x16x16 .f32) (main_arg1 : FVec F S1024x256x16x16 .f32) : IVec S_ 1 :=
  let main_v0 : FVec F S1024x256x16x16 .f32 := Host.absf main_arg0
  let main_cst : FVec F S_ .f32 := constant S_ .f32 0x7F800000#32
  let main_v1 : FVec F S1024x256x16x16 .f32 := broadcastInDim S1024x256x16x16 ![] bcast_S_S1024x256x16x16 main_cst
  let main_v2 : IVec S1024x256x16x16 1 := cmpf .olt main_v0 main_v1
  let main_c : IVec S_ 1 := constantI S_ 1 1#1
  let main_v3 : IVec S_ 1 := (fun x v => Host.reduce IntOp.andi x v reducesTo_S1024x256x16x16_S_d0_1_2_3 h_S_) main_v2 main_c
  let main_v4 : FVec F S1024x256x16x16 .f32 := Host.absf main_arg1
  let main_cst_0 : FVec F S_ .f32 := constant S_ .f32 0x7F800000#32
  let main_v5 : FVec F S1024x256x16x16 .f32 := broadcastInDim S1024x256x16x16 ![] bcast_S_S1024x256x16x16 main_cst_0
  let main_v6 : IVec S1024x256x16x16 1 := cmpf .olt main_v4 main_v5
  let main_c_1 : IVec S_ 1 := constantI S_ 1 1#1
  let main_v7 : IVec S_ 1 := (fun x v => Host.reduce IntOp.andi x v reducesTo_S1024x256x16x16_S_d0_1_2_3 h_S_) main_v6 main_c_1
  let main_v8 : IVec S_ 1 := andi main_v3 main_v7
  main_v8
-- ==== Kernel.lean ====
abbrev S1024x256x16x16 : Shape := ⟨4, ![1024, 256, 16, 16]⟩
abbrev S1024x65536 : Shape := ⟨2, ![1024, 65536]⟩
abbrev S1024x1 : Shape := ⟨2, ![1024, 1]⟩
abbrev S512x4096 : Shape := ⟨2, ![512, 4096]⟩
abbrev S512x1 : Shape := ⟨2, ![512, 1]⟩
abbrev S512 : Shape := ⟨1, ![512]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S1024x256x16x16, .f32⟩
  | .hbm, ⟨1, _⟩ => ⟨S1024x256x16x16, .f32⟩
  | .hbm, ⟨2, _⟩ => ⟨S1024x65536, .f32⟩
  | .hbm, ⟨3, _⟩ => ⟨S1024x65536, .f32⟩
  | .hbm, ⟨4, _⟩ => ⟨S1024x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S1024x256x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1024x256x16x16_S1024x65536 : S1024x256x16x16.ShapeCasts S1024x65536
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  reducesTo_S1024x1_S_d0_1 : S1024x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S1024x65536.size a
  hwx0_0 : ∀ i : grid0.Coords, EltTy.bits .f32 = 32 ∨ (Rect.block (s := S1024x65536) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S1024x65536.size a
  hwx0_1 : ∀ i : grid0.Coords, EltTy.bits .f32 = 32 ∨ (Rect.block (s := S1024x65536) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S1024x1.size a
  hwx0_2 : ∀ i : grid0.Coords, EltTy.bits .f32 = 32 ∨ (Rect.block (s := S1024x1) S512x1.size (cc0_transform_2 i) (hinb0_2 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x256x16x16 : Shape := ⟨4, ![1024, 256, 16, 16]⟩
abbrev S1024x65536 : Shape := ⟨2, ![1024, 65536]⟩
abbrev S_ : Shape := ⟨0, ![]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S1024x256x16x16, .f32⟩
  | .hbm, ⟨1, _⟩ => ⟨S1024x256x16x16, .f32⟩
  | .hbm, ⟨2, _⟩ => ⟨S1024x65536, .f32⟩
  | .hbm, ⟨3, _⟩ => ⟨S1024x65536, .f32⟩
  | .hbm, ⟨4, _⟩ => ⟨S1024x65536, .f32⟩
  | .hbm, ⟨5, _⟩ => ⟨S1024x65536, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .i1⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S1024x256x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  shapeCasts_S1024x256x16x16_S1024x65536 : S1024x256x16x16.ShapeCasts S1024x65536
  reducesTo_S1024x65536_S1024_d1 : S1024x65536.ReducesTo [1] S1024
  h_S_ : 0 < S_.numel
  bcast_S_S1024 : S_.BroadcastsInDim S1024 (![] : Fin 0 → Fin S1024.rank)
  reducesTo_S1024_S_d0 : S1024.ReducesTo [0] S_

variable [Facts₀]

class Facts : Prop extends Facts₀ where

variable [Facts]
-- ==== Proof.HingeSpec.lean ====
/-
  The pairs-only hinge loss, as ONE function of the two inputs flattened to 1024 rows of 65536 entries.

  For a row R the squared differences (x - y)·(x - y) are summed over the row's 65536 columns; the sum times 2^-16
  is the row's mean; a mean above the margin (the f32 word nearest 0.01) contributes its excess over the margin,
  any other mean contributes zero; the loss is the sum of the 1024 contributions divided by 1024.

  Two facts join the two programs to this function, and both hold on every extended real, so the finiteness of the
  inputs is never used:
  · a sum over the 65536 columns is the sum, over the 16 column blocks of 4096, of the sums inside each block
    (addition of extended reals is commutative and associative): the kernel walks a row block by block and adds each
    block's sum to a running total, the reference sums the row at once;
  · dividing by 65536 is multiplying by 2^-16: the f32 word 0x47800000 denotes exactly 65536 and the word 0x37800000
    denotes exactly 1/65536, a power of two, so the kernel's folded reciprocal is exact.
-/
import Idealize.ShloMosaic.PureOps.Ideal
import Idealize.ShloMosaic.PureOps.Ideal.Laws
import Idealize.ShloMosaic.Lib.ValueIdx

noncomputable section

namespace Cert.HingeSpec

open Idealize.ShloMosaic Idealize.ShloMosaic.ValueIdx

/-- The two inputs flattened: 1024 rows of 65536 entries. -/
abbrev Flat : Shape := ⟨2, ![1024, 65536]⟩

/-- The squared difference of the two arrays at row `R`, column `k`. -/
def sqd (X Y : Flat.Idx → EReal) (R : Fin 1024) (k : Fin 65536) : EReal :=
  (X (ix2 R k) - Y (ix2 R k)) * (X (ix2 R k) - Y (ix2 R k))

/-- The margin: the f32 word nearest 0.01, the same word in both programs. -/
def margin : EReal := Ideal.ofBits .f32 0x3C23D70A#32

/-- The hinge of a row's mean `μ`: its excess over the margin when it is above the margin, zero otherwise. -/
def hinge (μ : EReal) : EReal :=
  Scalar.select (FloatOps.cmpf (F := Ideal) (φ := .f32) .ogt μ margin) (μ - margin) (Ideal.ofBits .f32 0x00000000#32)

/-- A row's mean squared difference: the row's sum times 2^-16. -/
def rowMean (X Y : Flat.Idx → EReal) (R : Fin 1024) : EReal :=
  (∑ k : Fin 65536, sqd X Y R k) * Ideal.ofBits .f32 0x37800000#32

/-- The loss: the hinged row means summed over the 1024 rows, divided by 1024. -/
def loss (X Y : Flat.Idx → EReal) : EReal :=
  Ideal.div (∑ R : Fin 1024, hinge (rowMean X Y R)) (Ideal.ofBits .f32 0x44800000#32)

/-! ## The two constants -/

/-- The word 0x47800000 denotes 65536 = 2^16. -/
theorem ofBits_two16 : Ideal.ofBits .f32 0x47800000#32 = ((65536 : ℝ) : EReal) := by
  simp [Ideal.ofBits, Ideal.ieee, -EReal.coe_mul]; norm_num

/-- The word 0x37800000 denotes 1/65536 = 2^-16, exactly. -/
theorem ofBits_inv16 : Ideal.ofBits .f32 0x37800000#32 = ((1 / 65536 : ℝ) : EReal) := by
  simp [Ideal.ofBits, Ideal.ieee, -EReal.coe_mul]; norm_num

/-- Dividing an extended real by the word for 65536 is multiplying it by the word for 2^-16. -/
theorem div_two16 (x : EReal) :
    Ideal.div x (Ideal.ofBits .f32 0x47800000#32) = x * Ideal.ofBits .f32 0x37800000#32 := by
  rw [ofBits_two16, ofBits_inv16]
  exact Ideal.div_coe (by norm_num) x

/-! ## A row's sum, block by block -/

/-- Column `j` of column block `l` (blocks of 4096 columns), as a column of the row; total in `l`: past the sixteenth
    block it wraps round, which no use below reaches. -/
def col (l : ℕ) (j : Fin 4096) : Fin 65536 := ⟨(4096 * l + j.val) % 65536, Nat.mod_lt _ (by norm_num)⟩

/-- The sum of `f` over column block `l`. -/
def blockSum (f : Fin 65536 → EReal) (l : ℕ) : EReal := ∑ j : Fin 4096, f (col l j)

/-- The sixteen block sums add up to the sum over the whole row. -/
theorem sum_blockSum (f : Fin 65536 → EReal) : ∑ l ∈ Finset.range 16, blockSum f l = ∑ k : Fin 65536, f k := by
  rw [Finset.sum_range]
  have e : ∑ k : Fin 65536, f k = ∑ p : Fin 16 × Fin 4096, f (finProdFinEquiv p) :=
    (Equiv.sum_comp (finProdFinEquiv (m := 16) (n := 4096)) f).symm
  rw [e, Fintype.sum_prod_type]
  refine Finset.sum_congr rfl fun l _ => Finset.sum_congr rfl fun j _ => congrArg f (Fin.ext ?_)
  show (4096 * l.val + j.val) % 65536 = j.val + 4096 * l.val
  have hl := l.isLt
  have hj := j.isLt
  omega

end Cert.HingeSpec

end
-- ==== Proof.HingeRef.lean ====
/-
  The reference computes the loss function of the specification.

  Read one operation at a time: the two inputs are flattened to 1024 × 65536; their difference is squared entry by
  entry; each row is summed from zero over its 65536 columns and divided by 65536, which is the row's sum times 2^-16;
  the hinge is taken against the margin; the 1024 hinged means are summed from zero and divided by 1024.
-/
import proofs.«101244_j71966472012553_1_alg».proof.Proof.Gen.ReferenceIdeal.Read
import proofs.«101244_j71966472012553_1_alg».proof.Proof.HingeSpec
import Idealize.ShloMosaic.Lib.ValueIdx
import Idealize.ShloMosaic.PureOps.Ideal.Laws

noncomputable section

namespace Cert.ReferenceIdeal.HingeRef

open Cert.ReferenceIdeal Cert.ReferenceIdeal.Read Idealize.ShloMosaic Idealize.ShloMosaic.ValueIdx Cert.HingeSpec

/-- A sum over the indices of a vector of length `n` is the sum over its one coordinate. -/
theorem sum_idx1 {M : Type*} [AddCommMonoid M] {n : Nat} (f : (⟨1, ![n]⟩ : Shape).Idx → M) :
    ∑ i, f i = ∑ a : Fin n, f (ix1 a) :=
  (Equiv.sum_comp (⟨ix1, fun i => i 0, fun _ => rfl, fun i => (eq_ix1 i).symm⟩ : Fin n ≃ (⟨1, ![n]⟩ : Shape).Idx) f).symm

/-- The index the row sum reads at row `R`, column `k`, is `(R, k)`. -/
theorem idx_row (R : Fin 1024) (k : Fin 65536) : idx_main_v4 (ix1 R) k = ix2 R k :=
  funext fun a => Fin.ext (by match a with | ⟨0, _⟩ => rfl | ⟨1, _⟩ => rfl)

/-- The squared difference the reference forms at `(R, k)` is the specification's. -/
theorem sq_apply (x0 x1 : (⟨S1024x256x16x16, .f32⟩ : BufTy).Contents (Elt Ideal)) (R : Fin 1024) (k : Fin 65536) :
    val_main_v3 (F := Ideal) x0 x1 (ix2 R k) = sqd (val_main_v0 (F := Ideal) x0) (val_main_v1 (F := Ideal) x1) R k := by
  rw [val_main_v3_apply, val_main_v2_apply]
  rfl

/-- The hinged mean the reference forms for row `R` is the specification's. -/
theorem hinged_apply (x0 x1 : (⟨S1024x256x16x16, .f32⟩ : BufTy).Contents (Elt Ideal)) (R : Fin 1024) :
    val_main_v11 (F := Ideal) x0 x1 (ix1 R)
      = hinge (rowMean (val_main_v0 (F := Ideal) x0) (val_main_v1 (F := Ideal) x1) R) := by
  have hmean : val_main_v6 (F := Ideal) x0 x1 (ix1 R)
      = rowMean (val_main_v0 (F := Ideal) x0) (val_main_v1 (F := Ideal) x1) R := by
    rw [val_main_v6_apply, val_main_v5_apply, val_main_cst_0_apply, val_main_v4_apply, val_main_cst_apply]
    simp only [idx_row, sq_apply, Ideal.hostDivf_def, Ideal.ofBits_def, Ideal.ofBits_zero_f32, zero_add, div_two16]
    rfl
  rw [val_main_v11_apply, val_main_v8_apply, val_main_v10_apply, val_main_call0_v1_apply, val_main_call0_v0_apply,
    val_main_cst_3_apply, val_main_v7_apply, val_main_v9_apply, val_main_cst_1_apply, val_main_cst_2_apply, hmean]
  rfl

/-- The reference's result is the loss of the two flattened inputs. -/
theorem result_eq_loss (x0 x1 : (⟨S1024x256x16x16, .f32⟩ : BufTy).Contents (Elt Ideal)) (i : S_.Idx) :
    val_main_v13 (F := Ideal) x0 x1 i = loss (val_main_v0 (F := Ideal) x0) (val_main_v1 (F := Ideal) x1) := by
  rw [val_main_v13_apply, val_main_v12_apply, val_main_cst_5_apply, val_main_cst_4_apply, sum_idx1]
  simp only [hinged_apply, Ideal.hostDivf_def, Ideal.ofBits_def, Ideal.ofBits_zero_f32, zero_add]
  rfl

end Cert.ReferenceIdeal.HingeRef

end
-- ==== Proof.LibKeepdims.lean ====
/-
  General lemmas for kernels that keep a reduced axis as a column (`sum(..., keepdims=True)`) and for moving a
  finite factor through a finite sum of extended reals.

  · `mul_sum_of_nonneg_of_ne_top`: on the extended reals `a · Σ f = Σ a · f` for a factor `0 ≤ a < ⊤`, with no condition
    on the terms (they may hold both infinities: scaling by a nonnegative real keeps each term's sign and infinity,
    and by zero the law is `0 = 0`).
  · `shapeCast_column`: an `[a]` vector viewed as the column `[a, 1]`, read at an entry.
  · `broadcastTo_column`: a column `[a, 1]` laid across `b` columns to `[a, b]`, read at an entry.
  · `rowSum`: the f32 lane sum of an `[n, w]` value over its second axis from the zero word, read at a row, as a
    sum over `Fin w`.
  Indices are built with `ValueIdx.ix1` / `ix2`, so every coordinate has a literal `Fin` type.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibKeepdims

open Idealize.ShloMosaic Idealize.ShloMosaic.ValueIdx

/-- A finite nonnegative extended real moves inside a finite sum of extended reals, whatever the terms are. -/
theorem mul_sum_of_nonneg_of_ne_top {ι : Type*} {a : EReal} (ha : 0 ≤ a) (ha' : a ≠ ⊤) (s : Finset ι) (f : ι → EReal) :
    a * ∑ k ∈ s, f k = ∑ k ∈ s, a * f k := by
  classical
  induction s using Finset.induction_on with
  | empty => simp
  | insert b s hb ih =>
    rw [Finset.sum_insert hb, Finset.sum_insert hb, EReal.left_distrib_of_nonneg_of_ne_top ha ha', ih]

/-- An `[a]` vector cast to the column `[a, 1]` reads, at `(i, u)`, the vector at `i`. -/
theorem shapeCast_column {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry `p`. -/
theorem broadcastTo_column {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 lane sum of an `[n, w]` value over its second axis, from the zero word, at row `p`: the sum of that row's
    `w` entries. (Apply it in term mode — `refine (rowSum …).trans ?_`, `congrArg` — against a printed payload: the
    printed proof arguments are spelt differently from a lemma's, which `rw` and `simp` do not see through.) -/
theorem rowSum {n w : ℕ} (v : FVec Ideal (⟨2, ![n, w]⟩ : Shape) .f32) (h : Shape.Reduces (⟨2, ![n, w]⟩ : Shape) [1] (⟨1, ![n]⟩ : Shape))
    (hφ : FKind.Formats .f32) (hacc : (0x00000000#32 : BitVec 32) = FKind.add.neutral .f32 hφ) (p : Fin n) :
    multiReduction .add [1] (⟨1, ![n]⟩ : Shape) v 0x00000000#32 h hφ hacc (ix1 p) = ∑ d : Fin w, v (ix2 p d) := by
  refine (Ideal.multiReduction_add_single v _ h hφ hacc (ix1 p)).trans ?_
  exact Finset.sum_congr rfl fun d _ => congrArg v (funext fun a => Fin.ext (by match a with | ⟨0, _⟩ => rfl | ⟨1, _⟩ => rfl))

end Cert.LibKeepdims

end
-- ==== Proof.HingePieces.lean ====
/-
  What one visit of a grid point leaves behind, case by case, and what those values are entry by entry.

  The kernel keeps a running total per row in a scratch column of 512 entries. At the first column block of a row
  block it stores zeros and reads them back, so it leaves `0 + s`; at every other block it leaves `total + s`, where
  `s` is, for each of the 512 rows, the sum over the block's 4096 columns of the squared difference of the two input
  blocks. At the last column block it also writes the output column: the hinge of `total · 2^-16`.
-/
import proofs.«101244_j71966472012553_1_alg».proof.Proof.Gen.KernelIdeal.Frame
import proofs.«101244_j71966472012553_1_alg».proof.Proof.HingeSpec
import proofs.«101244_j71966472012553_1_alg».proof.Proof.LibKeepdims
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.HingeValue

open Cert.KernelIdeal Cert.KernelIdeal.Gen Cert.HingeSpec

variable {F : FTy → Type} [FloatOps F]

theorem hz : (![0, 0] : Fin 2 → Nat) = fun _ => 0 := funext fun a => by fin_cases a <;> rfl

/-! ## The three cases' values, at any instance -/

/-- First column block of a row block: the scratch is reset to zero and read back, so it ends at the zero column
    plus this block's row sums. -/
theorem total_first (c : Dev nD) (i : grid0.Coords) (a2 : Memref sig .tc .vmem S512x4096 .f32) (h2 : a2.IsWhole)
    (a3 : Memref sig .tc .vmem S512x4096 .f32) (h3 : a3.IsWhole) (a4 : Memref sig .tc .vmem S512x1 .f32) (h4 : a4.IsWhole)
    (a5 : Memref sig .tc .vmem S512x1 .f32) (h5 : a5.IsWhole) (hc0 : cond0_0 i) (hc1 : ¬cond0_1 i)
    (x0 x1 : Vec F S512x4096 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x1) hz, View.readCov_unit_zero (S := S512x1) _ hz]
  simp only [View.readAt_eq_ld, h2.read_unread, h3.read_unread, View.ld_unit_zero (S := S512x4096) hz]

/-- A middle column block: the scratch holding `xs` ends at `xs` plus this block's row sums. -/
theorem total_middle (c : Dev nD) (i : grid0.Coords) (a2 : Memref sig .tc .vmem S512x4096 .f32) (h2 : a2.IsWhole)
    (a3 : Memref sig .tc .vmem S512x4096 .f32) (h3 : a3.IsWhole) (a4 : Memref sig .tc .vmem S512x1 .f32) (h4 : a4.IsWhole)
    (a5 : Memref sig .tc .vmem S512x1 .f32) (h5 : a5.IsWhole) (hc0 : ¬cond0_0 i) (hc1 : ¬cond0_1 i)
    (x0 x1 : Vec F S512x4096 .f32) (xs : Vec F S512x1 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz]
  simp only [View.readAt_eq_ld, h2.read_unread, h3.read_unread, h5.read_unread, View.ld_unit_zero (S := S512x4096) hz,
    View.ld_unit_zero (S := S512x1) hz]

/-- The last column block: the scratch ends as in a middle block, -/
theorem total_last (c : Dev nD) (i : grid0.Coords) (a2 : Memref sig .tc .vmem S512x4096 .f32) (h2 : a2.IsWhole)
    (a3 : Memref sig .tc .vmem S512x4096 .f32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x0 x1 : Vec F S512x4096 .f32) (xs : Vec F S512x1 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S512x4096) hz,
    View.ld_unit_zero (S := S512x1) hz]

/-- and the output column is the hinge computed from the scratch as just updated. -/
theorem out_last (c : Dev nD) (i : grid0.Coords) (a2 : Memref sig .tc .vmem S512x4096 .f32) (h2 : a2.IsWhole)
    (a3 : Memref sig .tc .vmem S512x4096 .f32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x0 x1 : Vec F S512x4096 .f32) (xs : Vec F S512x1 .f32) :
    out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S512x4096) hz,
    View.ld_unit_zero (S := S512x1) hz, View.readCov_unit_zero (S := S512x1) _ hz]

/-! ## The same values entry by entry, over the extended reals -/

/-- The reset column is zero at every entry. -/
theorem reset_apply (j : S512x1.Idx) : k0_pay1 (F := Ideal) j = 0 := by
  unfold k0_pay1
  refine (congrFun (shapeCast_self _ _) j).trans ?_
  exact Ideal.ofBits_zero_f32

/-- The updated total at row `r`: the old total there plus the sum over the block's 4096 columns of the squared
    difference of the two blocks. -/
theorem total_apply (x0 x1 : Vec Ideal S512x4096 .f32) (acc : Vec Ideal S512x1 .f32) (r : Fin 512) :
    k0_pay2 (F := Ideal) x0 x1 acc (ix2 r (0 : Fin 1))
      = acc (ix2 r (0 : Fin 1)) + ∑ d : Fin 4096, (x0 (ix2 r d) - x1 (ix2 r d)) * (x0 (ix2 r d) - x1 (ix2 r d)) := by
  unfold k0_pay2
  refine (congrFun (shapeCast_self _ _) (ix2 r (0 : Fin 1))).trans ?_
  refine congrArg (acc (ix2 r (0 : Fin 1)) + ·) ?_
  refine (Cert.LibKeepdims.shapeCast_column _ _ r (0 : Fin 1)).trans ?_
  refine (Cert.LibKeepdims.rowSum _ _ _ _ r).trans ?_
  refine Finset.sum_congr rfl fun d _ => ?_
  simp only [mulf_apply, subf_apply, shapeCast_self]

/-- The output entry: the hinge of the total times 2^-16. -/
theorem hinged_apply (acc : Vec Ideal S512x1 .f32) (j : S512x1.Idx) :
    k0_pay3 (F := Ideal) acc j = hinge (acc j * Ideal.ofBits .f32 0x37800000#32) := rfl

end Cert.KernelIdeal.HingeValue

end
-- ==== Proof.HingeAccum.lean ====
/-
  The running total across the grid, and the output column at a row block's last visit.

  The grid has 32 points: point `n` visits row block `n / 16` (512 rows) and column block `n % 16` (4096 columns) of
  the two flattened inputs. Entry `(r, d)` of an input block at point `n` is entry `(512·(n/16) + r, 4096·(n%16) + d)`
  of the array. By induction on the point, after point `n` the scratch column holds, at row `r`, the sum of the first
  `n % 16 + 1` block sums of row `512·(n/16) + r`; at a row block's last visit all sixteen are in, which is the whole
  row's sum, and the output column holds the hinge of that sum times 2^-16.
-/
import proofs.«101244_j71966472012553_1_alg».proof.Proof.HingePieces

set_option maxRecDepth 16384

noncomputable section

open Idealize.ShloMosaic Idealize.ShloMosaic.TcCoe Idealize.SL.Sem Idealize.ShloMosaic.ValueIdx

namespace Cert.KernelIdeal.HingeValue

open Cert.KernelIdeal Cert.KernelIdeal.Gen Cert.HingeSpec

variable {F : FTy → Type} [FloatOps F]
variable (m : (ℓ : Loc nD τ sig) → Buf (Elt F) ℓ)

/-- The two flattened inputs as the kernel's region finds them, -/
abbrev zarr (c : Dev nD) : Vec F S1024x65536 .f32 := V m c main_v0
abbrev warr (c : Dev nD) : Vec F S1024x65536 .f32 := V m c main_v1
/-- and their blocks at a grid point. -/
abbrev zblk (c : Dev nD) (t : Fin cfg0.N) : Vec F S512x4096 .f32 := iblk m c 0 t
abbrev wblk (c : Dev nD) (t : Fin cfg0.N) : Vec F S512x4096 .f32 := iblk m c 1 t

/-- Row `r` of the row block point `n` visits, as a row of the array (total in `n`; below 32 nothing wraps). -/
def row (n : ℕ) (r : Fin 512) : Fin 1024 := ⟨(512 * (n / 16) + r.val) % 1024, Nat.mod_lt _ (by norm_num)⟩

/-- The block indices over the grid: the inputs' are (n / 16, n % 16), the output's (n / 16, 0). -/
theorem block_index : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = t.val / 16 ∧ win0_2.index t (1 : Fin 2) = 0 :=
  (by decide +kernel : ∀ t : Fin grid0.N,
    win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = t.val / 16 ∧ win0_2.index t (1 : Fin 2) = 0)

/-- An entry of the first input's block is the array's entry at the block's offset. -/
theorem zblk_apply (c : Dev nD) (t : Fin cfg0.N) (r : Fin 512) (d : Fin 4096) :
    zblk m c t (ix2 r d) = zarr m c (ix2 (row t.val r) (col (t.val % 16) d)) := by
  have hN : t.val < 32 := lt_of_lt_of_eq t.isLt (show cfg0.N = 32 from N_0)
  show iblk m c 0 t (ix2 r d) = _
  unfold iblk
  rw [View.read_apply]
  show V m c main_v0 _ = V m c main_v0 _
  congr 1
  funext a
  apply Fin.ext
  match a with
  | ⟨0, _⟩ =>
    show win0_0.index t 0 * 512 + 1 * r.val = (512 * (t.val / 16) + r.val) % 1024
    rw [(block_index t).1]; have := r.isLt; omega
  | ⟨1, _⟩ =>
    show win0_0.index t 1 * 4096 + 1 * d.val = (4096 * (t.val % 16) + d.val) % 65536
    rw [(block_index t).2.1]; have := d.isLt; omega

/-- The same for the second input. -/
theorem wblk_apply (c : Dev nD) (t : Fin cfg0.N) (r : Fin 512) (d : Fin 4096) :
    wblk m c t (ix2 r d) = warr m c (ix2 (row t.val r) (col (t.val % 16) d)) := by
  have hN : t.val < 32 := lt_of_lt_of_eq t.isLt (show cfg0.N = 32 from N_0)
  show iblk m c 1 t (ix2 r d) = _
  unfold iblk
  rw [View.read_apply]
  show V m c main_v1 _ = V m c main_v1 _
  congr 1
  funext a
  apply Fin.ext
  match a with
  | ⟨0, _⟩ =>
    show win0_1.index t 0 * 512 + 1 * r.val = (512 * (t.val / 16) + r.val) % 1024
    rw [(block_index t).2.2.1]; have := r.isLt; omega
  | ⟨1, _⟩ =>
    show win0_1.index t 1 * 4096 + 1 * d.val = (4096 * (t.val % 16) + d.val) % 65536
    rw [(block_index t).2.2.2.1]; have := d.isLt; omega

end Cert.KernelIdeal.HingeValue

/-! ## Over the extended reals -/

namespace Cert.KernelIdeal.HingeValue

open Cert.KernelIdeal Cert.KernelIdeal.Gen Cert.HingeSpec

variable (m : (ℓ : Loc nD τ sig) → Buf (Elt Ideal) ℓ)

/-- One visit: the total at row `r` grows by the visited column block's sum of that row's squared differences. -/
theorem visit (c : Dev nD) (t : Fin cfg0.N) (acc : Vec Ideal S512x1 .f32) (r : Fin 512) :
    k0_pay2 (F := Ideal) (zblk m c t) (wblk m c t) acc (ix2 r (0 : Fin 1))
      = acc (ix2 r (0 : Fin 1)) + blockSum (sqd (zarr m c) (warr m c) (row t.val r)) (t.val % 16) := by
  refine (total_apply (zblk m c t) (wblk m c t) acc r).trans ?_
  refine congrArg (acc (ix2 r (0 : Fin 1)) + ·) ?_
  refine Finset.sum_congr rfl fun d _ => ?_
  rw [zblk_apply, wblk_apply]
  rfl

/-- After point `n` the scratch holds, at row `r`, the first `n % 16 + 1` block sums of the row it stands for. -/
theorem total_eq (c : Dev nD) (n : ℕ) : ∀ (hn : n < cfg0.N) (r : Fin 512),
    (outsAt0 m c n hn).2 (ix2 r (0 : Fin 1))
      = ∑ l ∈ Finset.range (n % 16 + 1), blockSum (sqd (zarr m c) (warr m c) (row n r)) l := by
  induction n using Nat.strong_induction_on with
  | _ n ih =>
    intro hn r
    have hN : n < 32 := lt_of_lt_of_eq hn (show cfg0.N = 32 from N_0)
    by_cases h0 : n % 16 = 0
    · have h1 : ¬n % 16 = 15 := by omega
      rw [outsAt0_A m c ⟨n, hn⟩ h0 h1]
      dsimp only
      refine (congrFun (total_first (F := Ideal) c (grid0.coords ⟨n, hn⟩) (ms0_0 ⟨n, hn⟩) (hs0_0 ⟨n, hn⟩) (ms0_1 ⟨n, hn⟩)
        (hs0_1 ⟨n, hn⟩) (ms0_2 ⟨n, hn⟩) (hs0_2 ⟨n, hn⟩) scM0_0 (Memref.isWhole_whole _) ((hcond0_0 ⟨n, hn⟩).mpr h0)
        (fun h => h1 ((hcond0_1 ⟨n, hn⟩).mp h)) (zblk m c ⟨n, hn⟩) (wblk m c ⟨n, hn⟩)) (ix2 r (0 : Fin 1))).trans ?_
      refine (visit m c ⟨n, hn⟩ (k0_pay1 (F := Ideal)) r).trans ?_
      rw [reset_apply, zero_add]
      show blockSum _ (n % 16) = _
      rw [h0, Finset.sum_range_one]
    · have hn1 : n - 1 < cfg0.N := lt_of_le_of_lt (Nat.sub_le _ _) hn
      have hrow : row (n - 1) r = row n r := by
        unfold row; apply Fin.ext; show (512 * ((n - 1) / 16) + r.val) % 1024 = (512 * (n / 16) + r.val) % 1024
        have : (n - 1) / 16 = n / 16 := by omega
        rw [this]
      have hprev := ih (n - 1) (by omega) hn1 r
      rw [hrow, show (n - 1) % 16 + 1 = n % 16 from by omega] at hprev
      by_cases h1 : n % 16 = 15
      · rw [outsAt0_C m c ⟨n, hn⟩ h0 h1]
        dsimp only
        refine (congrFun (total_last (F := Ideal) c (grid0.coords ⟨n, hn⟩) (ms0_0 ⟨n, hn⟩) (hs0_0 ⟨n, hn⟩) (ms0_1 ⟨n, hn⟩)
          (hs0_1 ⟨n, hn⟩) (ms0_2 ⟨n, hn⟩) (hs0_2 ⟨n, hn⟩) scM0_0 (Memref.isWhole_whole _) (fun h => h0 ((hcond0_0 ⟨n, hn⟩).mp h))
          ((hcond0_1 ⟨n, hn⟩).mpr h1) (zblk m c ⟨n, hn⟩) (wblk m c ⟨n, hn⟩) (outsAt0 m c (n - 1) hn1).2) (ix2 r (0 : Fin 1))).trans ?_
        refine (visit m c ⟨n, hn⟩ (outsAt0 m c (n - 1) hn1).2 r).trans ?_
        rw [hprev]
        exact (Finset.sum_range_succ _ _).symm
      · rw [outsAt0_B m c ⟨n, hn⟩ h0 h1]
        dsimp only
        refine (congrFun (total_middle (F := Ideal) c (grid0.coords ⟨n, hn⟩) (ms0_0 ⟨n, hn⟩) (hs0_0 ⟨n, hn⟩) (ms0_1 ⟨n, hn⟩)
          (hs0_1 ⟨n, hn⟩) (ms0_2 ⟨n, hn⟩) (hs0_2 ⟨n, hn⟩) scM0_0 (Memref.isWhole_whole _) (fun h => h0 ((hcond0_0 ⟨n, hn⟩).mp h))
          (fun h => h1 ((hcond0_1 ⟨n, hn⟩).mp h)) (zblk m c ⟨n, hn⟩) (wblk m c ⟨n, hn⟩) (outsAt0 m c (n - 1) hn1).2) (ix2 r (0 : Fin 1))).trans ?_
        refine (visit m c ⟨n, hn⟩ (outsAt0 m c (n - 1) hn1).2 r).trans ?_
        rw [hprev]
        exact (Finset.sum_range_succ _ _).symm

/-- At a row block's last visit the output column holds, at row `r`, the hinge of the whole row's mean. -/
theorem out_eq (c : Dev nD) (t : Fin cfg0.N) (h15 : t.val % 16 = 15) (r : Fin 512) :
    (outsAt0 m c t.val t.isLt).1 (ix2 r (0 : Fin 1)) = hinge (rowMean (zarr m c) (warr m c) (row t.val r)) := by
  have h0 : ¬t.val % 16 = 0 := by omega
  have hn1 : t.val - 1 < cfg0.N := lt_of_le_of_lt (Nat.sub_le _ _) t.isLt
  have htot : k0_pay2 (F := Ideal) (zblk m c t) (wblk m c t) (outsAt0 m c (t.val - 1) hn1).2 (ix2 r (0 : Fin 1))
      = ∑ k : Fin 65536, sqd (zarr m c) (warr m c) (row t.val r) k := by
    have hall : ∑ l ∈ Finset.range (t.val % 16 + 1), blockSum (sqd (zarr m c) (warr m c) (row t.val r)) l
        = ∑ k : Fin 65536, sqd (zarr m c) (warr m c) (row t.val r) k := by
      rw [h15]; exact sum_blockSum _
    have hleft : (outsAt0 m c t.val t.isLt).2 (ix2 r (0 : Fin 1))
        = k0_pay2 (F := Ideal) (zblk m c t) (wblk m c t) (outsAt0 m c (t.val - 1) hn1).2 (ix2 r (0 : Fin 1)) := by
      rw [outsAt0_C m c t h0 h15]
      dsimp only
      exact congrFun (total_last (F := Ideal) c (grid0.coords t) (ms0_0 t) (hs0_0 t) (ms0_1 t) (hs0_1 t) (ms0_2 t) (hs0_2 t) scM0_0
        (Memref.isWhole_whole _) (fun h => h0 ((hcond0_0 t).mp h)) ((hcond0_1 t).mpr h15) (zblk m c t) (wblk m c t)
        (outsAt0 m c (t.val - 1) hn1).2) (ix2 r (0 : Fin 1))
    exact hleft.symm.trans ((total_eq m c t.val t.isLt r).trans hall)
  rw [outsAt0_C m c t h0 h15]
  dsimp only
  refine (congrFun (out_last (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h15) (zblk m c t) (wblk m c t)
    (outsAt0 m c (t.val - 1) hn1).2) (ix2 r (0 : Fin 1))).trans ?_
  refine (hinged_apply _ _).trans ?_
  rw [htot]
  rfl

end Cert.KernelIdeal.HingeValue

end
-- ==== Proof.HingeFinal.lean ====
/-
  From the written-back output blocks to the kernel's result.

  Output block `n / 16` (512 rows of the [1024, 1] column) is written back once, after the row block's last visit
  (points 15 and 31); the two blocks tile the column, so after the run row `R` of the column holds the hinge of row
  `R`'s mean. The host then sums the column from zero and divides by 1024: the loss of the two flattened inputs.
-/
import proofs.«101244_j71966472012553_1_alg».proof.Proof.HingeAccum
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HingeValue

open Cert.KernelIdeal Cert.KernelIdeal.Gen Cert.HingeSpec

variable (m : (ℓ : Loc nD τ sig) → Buf (Elt Ideal) ℓ) (ρ : Dev nD → PrngReg)

/-- The output column after the run: at row `R`, the hinge of row `R`'s mean squared difference. -/
def outCol (c : Dev nD) : Vec Ideal S1024x1 .f32 :=
  fun i => hinge (rowMean (zarr m c) (warr m c) ⟨(i 0).val, idx2_lt0 i⟩)

/-- What a writing-back point writes is its block of the output column. -/
theorem flushed_eq (c : Dev nD) (t : Fin cfg0.N) (hf : (cfg0.win 2).flush t = true) :
    (dats m 0 c).flushed 2 t = ((cfg0.win 2).blk t).view.read (Elt Ideal) (outCol m c) := by
  have h15 : t.val % 16 = 15 := (flush0_2 t).mp hf
  have hN : t.val < 32 := lt_of_lt_of_eq t.isLt (show cfg0.N = 32 from N_0)
  show (cfg0.win 2).cut (grid0.coords t) ((dats m 0 c).after 2 t) = _
  rw [after0_2]
  funext y
  have hy0 : (y 0).val < 512 := (y 0).isLt
  have hy1 : (y 1).val < 1 := (y 1).isLt
  -- what is written back at `y` is what the body left at row `y 0` of its one column
  have hl : (cfg0.win 2).cut (grid0.coords t) (outsAt0 m c t.val t.isLt).1 y
      = (outsAt0 m c t.val t.isLt).1 (ix2 (⟨(y 0).val, hy0⟩ : Fin 512) (0 : Fin 1)) :=
    congrArg (outsAt0 m c t.val t.isLt).1 (funext fun a => Fin.ext (by
      match a with
      | ⟨0, _⟩ => rfl
      | ⟨1, _⟩ => show (y 1).val = 0; omega))
  rw [hl, out_eq m c t h15, View.read_apply, cast_eq]
  unfold outCol
  refine congrArg (fun R => hinge (rowMean (zarr m c) (warr m c) R)) (Fin.ext ?_)
  show (512 * (t.val / 16) + (y 0).val) % 1024 = win0_2.index t (0 : Fin 2) * 512 + 1 * (y 0).val
  rw [(block_index t).2.2.2.2.1]; omega

/-- An index of the column is in point `t`'s output block iff each coordinate is in the block's range. -/
theorem mem_block (t : Fin cfg0.N) (i : S1024x1.Idx) :
    i ∈ ((cfg0.win 2).blk t).view.set
      ↔ ∀ a : Fin 2, win0_2.index t a * S512x1.size a ≤ (i a).val ∧ (i a).val < win0_2.index t a * S512x1.size a + S512x1.size a := by
  show i ∈ ((View.whole main_v2).slice (win0_2.rect t)).set ↔ _
  rw [View.set_slice_whole, Rect.mem_set_unit]
  exact Iff.rfl

/-- Row `R` is written back by the last visit of its row block, point `16·(R / 512) + 15`. -/
theorem covered (i : S1024x1.Idx) :
    ∃ t : Fin cfg0.N, (cfg0.win 2).flush t = true ∧ i ∈ ((cfg0.win 2).blk t).view.set := by
  have hi0 : (i 0).val < 1024 := (i 0).isLt
  have hi1 : (i 1).val < 1 := (i 1).isLt
  have hN : cfg0.N = 32 := N_0
  have hlt : 16 * ((i 0).val / 512) + 15 < cfg0.N := by rw [hN]; omega
  obtain ⟨-, -, -, -, e0, e1⟩ := block_index ⟨16 * ((i 0).val / 512) + 15, hlt⟩
  refine ⟨⟨16 * ((i 0).val / 512) + 15, hlt⟩, (flush0_2 _).mpr (by show (16 * ((i 0).val / 512) + 15) % 16 = 15; omega), ?_⟩
  rw [mem_block]
  intro a
  match a with
  | ⟨0, _⟩ =>
    show win0_2.index ⟨16 * ((i 0).val / 512) + 15, hlt⟩ 0 * 512 ≤ (i 0).val
      ∧ (i 0).val < win0_2.index ⟨16 * ((i 0).val / 512) + 15, hlt⟩ 0 * 512 + 512
    rw [e0]; show (16 * ((i 0).val / 512) + 15) / 16 * 512 ≤ (i 0).val ∧ (i 0).val < (16 * ((i 0).val / 512) + 15) / 16 * 512 + 512
    omega
  | ⟨1, _⟩ =>
    show win0_2.index ⟨16 * ((i 0).val / 512) + 15, hlt⟩ 1 * 1 ≤ (i 1).val
      ∧ (i 1).val < win0_2.index ⟨16 * ((i 0).val / 512) + 15, hlt⟩ 1 * 1 + 1
    rw [e1]; omega

/-- So the output column ends holding `outCol`. -/
theorem out_final (c : Dev nD) : (dats m 0 c).arrAt 2 cfg0.N = outCol m c :=
  (dats m 0 c).arrAt_eq_of_cover 2 (outCol m c) (flushed_eq m c) covered

/-- The flattened inputs are the host's reshapes of the two arguments. -/
theorem zarr_eq (c : Dev nD) :
    zarr m c = shapeCast S1024x65536 (m ((c : Thread nD τ).loc main_arg0)) shapeCasts_S1024x256x16x16_S1024x65536 := by
  show StableHlo.after hostOps0 (fun b => m (c, b)) (Proc.devRef .tc main_v0) = _
  after_results
  rfl
theorem warr_eq (c : Dev nD) :
    warr m c = shapeCast S1024x65536 (m ((c : Thread nD τ).loc main_arg1)) shapeCasts_S1024x256x16x16_S1024x65536 := by
  show StableHlo.after hostOps0 (fun b => m (c, b)) (Proc.devRef .tc main_v1) = _
  after_results
  rfl

/-- The host operations after the kernel turn the output column into the loss. -/
theorem tail_eq (c : Dev nD) :
    Pipeline.afterTail₀ cfgs (dats m) 0 (V0 m) [hostOps1] c main_v4 = fun _ => loss (zarr m c) (warr m c) := by
  unfold Pipeline.afterTail₀
  show StableHlo.after hostOps1 _ (Proc.devRef .tc main_v4) = _
  after_results
  have hcol : Pipeline.withArrays (cfgs 0).spec c (V0 m c) (fun w => (dats m 0 c).arrAt w (cfgs 0).N)
      (Proc.devRef .tc main_v2) = outCol m c :=
    (Pipeline.withArrays_arr spec0 launch0.win.arr_inj c _ _ 2).trans (out_final m c)
  rw [hcol]
  funext i
  show Ideal.div (Ideal.hostReduceAdd reducesTo_S1024x1_S_d0_1 (outCol m c) (Ideal.ofBits .f32 0x00000000#32) i)
      (Ideal.ofBits .f32 0x44800000#32) = loss (zarr m c) (warr m c)
  rw [Ideal.hostReduceAdd_total reducesTo_S1024x1_S_d0_1 (fun b => b.elim0), Ideal.ofBits_zero_f32, zero_add, sum_idx2]
  unfold loss
  refine congrArg (fun s => Ideal.div s (Ideal.ofBits .f32 0x44800000#32)) (Finset.sum_congr rfl fun R _ => ?_)
  rw [Fin.sum_univ_one]
  rfl

/-- The kernel's run, read: the result at the loss of the flattened inputs, the arguments unchanged. -/
theorem run : θ_run defs (onTc (τ := τ) (main (F := Ideal))) ⟨m, fun _ => 0, ρ⟩ fun r => ∀ c : Dev nD,
      r.2.mem ((c.tc : Thread nD τ).loc main_v4) = (fun _ => loss (zarr m c) (warr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.HingeValue

end
-- ==== Proof.lean ====
/-
  A pairs-only hinge loss over two inputs of shape [1024, 256, 16, 16]: each input is flattened to 1024 rows of
  65536 entries; a row's mean squared difference, where it exceeds the margin (the f32 word nearest 0.01), contributes
  its excess over the margin; the loss is the sum of the 1024 contributions divided by 1024.

  The kernel walks each block of 512 rows in sixteen column blocks of 4096, adding each block's row sums into a running
  total, and at the sixteenth multiplies the total by 2^-16 and applies the hinge; the host then sums the 1024 results and
  divides by 1024. The reference sums each whole row at once and divides by 65536. Over the extended reals the two are one
  function (`Cert.HingeSpec.loss`): a sum may be taken block by block, because addition is commutative and associative,
  and division by 65536 is multiplication by 2^-16, because both f32 words denote those powers of two exactly. Neither fact
  needs the inputs to be finite.

  The frames of the two kernel programs are the generated ones; the reference's frame is its generated run with the
  result dropped; the idealization rewrote nothing. The kernel's value is read off its generated frame run
  (HingePieces: each case's stores as values; HingeAccum: the running total by induction on the grid point;
  HingeFinal: the written-back blocks tile the output column, and the host's last two operations), the reference's off
  its generated run (HingeRef).
-/
import proofs.«101244_j71966472012553_1_alg».proof.Defs
import proofs.«101244_j71966472012553_1_alg».proof.Proof.Gen.Kernel
import proofs.«101244_j71966472012553_1_alg».proof.Proof.Gen.Kernel.Skeleton
import proofs.«101244_j71966472012553_1_alg».proof.Proof.Gen.Kernel.Launch
import proofs.«101244_j71966472012553_1_alg».proof.Proof.Gen.Kernel.Points
import proofs.«101244_j71966472012553_1_alg».proof.Proof.Gen.Kernel.Frame
import proofs.«101244_j71966472012553_1_alg».proof.Proof.Gen.KernelIdeal
import proofs.«101244_j71966472012553_1_alg».proof.Proof.Gen.KernelIdeal.Skeleton
import proofs.«101244_j71966472012553_1_alg».proof.Proof.Gen.KernelIdeal.Launch
import proofs.«101244_j71966472012553_1_alg».proof.Proof.Gen.KernelIdeal.Points
import proofs.«101244_j71966472012553_1_alg».proof.Proof.Gen.KernelIdeal.Frame
import proofs.«101244_j71966472012553_1_alg».proof.Proof.Gen.ReferenceIdeal
import proofs.«101244_j71966472012553_1_alg».proof.Proof.Gen.ReferenceIdeal.Run
import proofs.«101244_j71966472012553_1_alg».proof.Proof.Gen.ReferenceIdeal.Read
import proofs.«101244_j71966472012553_1_alg».proof.Proof.Gen.Pre_finite_inputs
import proofs.«101244_j71966472012553_1_alg».proof.Proof.HingeRef
import proofs.«101244_j71966472012553_1_alg».proof.Proof.HingeFinal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the loss of the two flattened inputs: the kernel by its run read back, the reference by its
    stages read one at a time; the inputs agree, and each program flattens them by the same reshape. -/
theorem algebraic : Cert.algebraic_KernelIdeal_ReferenceIdeal := by
  intro m ρ m' ρ' _ hagree
  refine ⟨fun c => fun _ => Cert.HingeSpec.loss (Cert.KernelIdeal.HingeValue.zarr m c) (Cert.KernelIdeal.HingeValue.warr m c),
    Cert.KernelIdeal.HingeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq]
  funext i
  rw [Cert.ReferenceIdeal.HingeRef.result_eq_loss, (hagree c).1, (hagree c).2]
  exact (congrArg₂ Cert.HingeSpec.loss (Cert.KernelIdeal.HingeValue.zarr_eq m c)
    (Cert.KernelIdeal.HingeValue.warr_eq m c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
